-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S4096x64 : Shape := ⟨2, ![4096, 64]⟩
abbrev S4096 : Shape := ⟨1, ![4096]⟩
abbrev S128x128 : Shape := ⟨2, ![128, 128]⟩
abbrev S128 : Shape := ⟨1, ![128]⟩
abbrev S64x128 : Shape := ⟨2, ![64, 128]⟩
abbrev S256x128 : Shape := ⟨2, ![256, 128]⟩
abbrev S128x100 : Shape := ⟨2, ![128, 100]⟩
abbrev S100 : Shape := ⟨1, ![100]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S256x128 : S_.BroadcastsInDim S256x128 (![] : Fin 0 → Fin S256x128.rank)
  reducesTo_S256x128_S_d0_1 : S256x128.ReducesTo [0, 1] S_
  bcast_S_S128x100 : S_.BroadcastsInDim S128x100 (![] : Fin 0 → Fin S128x100.rank)
  reducesTo_S128x100_S_d0_1 : S128x100.ReducesTo [0, 1] S_
  bcast_S_S100 : S_.BroadcastsInDim S100 (![] : Fin 0 → Fin S100.rank)
  reducesTo_S100_S_d0 : S100.ReducesTo [0] S_

variable [Facts]

def fn_part2 {F : FTy → Type} [FloatOps F] (main_arg9 : FVec F S128 .f32) (main_arg10 : FVec F S128x100 .f32) (main_arg11 : FVec F S100 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x100 .f32 := Host.absf main_arg10
  let main_cst_14 : FVec F S_ .f32 := constant S_ .f32 0x7F800000#32
  let main_v40 : FVec F S128x100 .f32 := broadcastInDim S128x100 ![] bcast_S_S128x100 main_cst_14
  let main_v41 : IVec S128x100 1 := cmpf .olt main_v39 main_v40
  let main_c_15 : IVec S_ 1 := constantI S_ 1 1#1
  let main_v42 : IVec S_ 1 := (fun x v => Host.reduce IntOp.andi x v reducesTo_S128x100_S_d0_1 h_S_) main_v41 main_c_15
  let main_v43 : IVec S_ 1 := andi main_v38 main_v42
  let main_v44 : FVec F S100 .f32 := Host.absf main_arg11
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  main_v48

def fn_part1 {F : FTy → Type} [FloatOps F] (main_arg6 : FVec F S64x128 .f32) (main_arg7 : FVec F S128 .f32) (main_arg8 : FVec F S256x128 .f32) (main_arg9 : FVec F S128 .f32) (main_arg10 : FVec F S128x100 .f32) (main_arg11 : FVec F S100 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x1600000 32) (main_arg2 : FVec F S4096x64 .f32) (main_arg3 : IVec S4096 32) (main_arg4 : FVec F S128x128 .f32) (main_arg5 : FVec F S128 .f32) (main_arg6 : FVec F S64x128 .f32) (main_arg7 : FVec F S128 .f32) (main_arg8 : FVec F S256x128 .f32) (main_arg9 : FVec F S128 .f32) (main_arg10 : FVec F S128x100 .f32) (main_arg11 : FVec F S100 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S4096x64 : Shape := ⟨2, ![4096, 64]⟩
abbrev S4096 : Shape := ⟨1, ![4096]⟩
abbrev S128x128 : Shape := ⟨2, ![128, 128]⟩
abbrev S128 : Shape := ⟨1, ![128]⟩
abbrev S64x128 : Shape := ⟨2, ![64, 128]⟩
abbrev S256x128 : Shape := ⟨2, ![256, 128]⟩
abbrev S128x100 : Shape := ⟨2, ![128, 100]⟩
abbrev S100 : Shape := ⟨1, ![100]⟩
abbrev S5000x128 : Shape := ⟨2, ![5000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S4096x1 : Shape := ⟨2, ![4096, 1]⟩
abbrev S4096x128 : Shape := ⟨2, ![4096, 128]⟩
abbrev S1x100 : Shape := ⟨2, ![1, 100]⟩
abbrev S4096x100 : Shape := ⟨2, ![4096, 100]⟩

abbrev nBuf : Space → Nat
  | .hbm => 86
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S4096x64, .f32⟩
  | .hbm, ⟨3, _⟩ => ⟨S4096, .i32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x100, .f32⟩
  | .hbm, ⟨11, _⟩ => ⟨S100, .f32⟩
  | .hbm, ⟨12, _⟩ => ⟨S100000x128, .f32⟩
  | .hbm, ⟨13, _⟩ => ⟨S100000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S_, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S_, .i32⟩
  | .hbm, ⟨72, _⟩ => ⟨S4096, .i32⟩
  | .hbm, ⟨73, _⟩ => ⟨S4096, .i1⟩
  | .hbm, ⟨74, _⟩ => ⟨S_, .i32⟩
  | .hbm, ⟨75, _⟩ => ⟨S4096, .i32⟩
  | .hbm, ⟨76, _⟩ => ⟨S4096, .i32⟩
  | .hbm, ⟨77, _⟩ => ⟨S4096, .i32⟩
  | .hbm, ⟨78, _⟩ => ⟨S4096x1, .i32⟩
  | .hbm, ⟨79, _⟩ => ⟨S4096x128, .f32⟩
  | .hbm, ⟨80, _⟩ => ⟨S128x128, .f32⟩
  | .hbm, ⟨81, _⟩ => ⟨S128x128, .f32⟩
  | .hbm, ⟨82, _⟩ => ⟨S1x128, .f32⟩
  | .hbm, ⟨83, _⟩ => ⟨S1x128, .f32⟩
  | .hbm, ⟨84, _⟩ => ⟨S1x100, .f32⟩
  | .hbm, ⟨85, _⟩ => ⟨S4096x100, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S4096x64, .f32⟩
  | .local _ .vmem, ⟨11, _⟩ => ⟨S64x128, .f32⟩
  | .local _ .vmem, ⟨12, _⟩ => ⟨S1x128, .f32⟩
  | .local _ .vmem, ⟨13, _⟩ => ⟨S4096x128, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S128x100, .f32⟩
  | .local _ .vmem, ⟨18, _⟩ => ⟨S1x100, .f32⟩
  | .local _ .vmem, ⟨19, _⟩ => ⟨S4096x100, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_v47 : Ref sig .tc := ⟨.hbm, 73, rfl⟩
abbrev main_c_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_stg8_0 : Ref sig .tc := ⟨.vmem, 18, rfl⟩
abbrev cc2_stg9_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem9_0 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S4096x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x100 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x100 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S4096x100 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S4096 : S_.BroadcastsInDim S4096 (![] : Fin 0 → Fin S4096.rank)
  bcast_S4096_S4096x1_0 : S4096.BroadcastsInDim S4096x1 (![0] : Fin 1 → Fin S4096x1.rank)
  slices_S256x128_S128x128_0_0 : S256x128.Slices ![0, 0] S128x128
  slices_S256x128_S128x128_128_0 : S256x128.Slices ![128, 0] S128x128
  shapeCasts_S100_S1x100 : S100.ShapeCasts S1x100
  inb_S4096x64_S4096x64_0_0 : ∀ a, (![0, 0] : Fin 2 → Nat) a + S4096x64.size a ≤ S4096x64.size a
  h_S4096x64 : 0 < S4096x64.numel
  inb_S64x128_S64x128_0_0 : ∀ a, (![0, 0] : Fin 2 → Nat) a + S64x128.size a ≤ S64x128.size a
  h_S64x128 : 0 < S64x128.numel
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S128x128_S128x128 : S128x128.ShapeCasts S128x128
  inb_S128x100_S128x100_0_0 : ∀ a, (![0, 0] : Fin 2 → Nat) a + S128x100.size a ≤ S128x100.size a
  h_S128x100 : 0 < S128x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S4096x100 : S1x100.Broadcasts S4096x100
  inb_S4096x100_S4096x100_0_0 : ∀ a, (![0, 0] : Fin 2 → Nat) a + S4096x100.size a ≤ S4096x100.size a
  h_S4096x100 : 0 < S4096x100.numel
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S4096x1_S4096x128_1_0_n_n_0_1_1128_wf : GatherDims.WF S100000x128 S4096x1 S4096x128 [1] [0] [] [0] [] 1 ![1, 128]
  dot_S4096x64_S64x128_S4096x128_1_0_0_1_n_n_wf : DotDims.WF S4096x64 S64x128 S4096x128 [1] [0] [0] [1] [] []
  dot_S4096x128_S128x128_S4096x128_1_0_0_1_n_n_wf : DotDims.WF S4096x128 S128x128 S4096x128 [1] [0] [0] [1] [] []
  dot_S4096x128_S128x100_S4096x100_1_0_0_1_n_n_wf : DotDims.WF S4096x128 S128x100 S4096x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S4096x64.size a
  hwx2_0 : ∀ i : grid2.Coords, EltTy.bits .f32 = 32 ∨ (Rect.block (s := S4096x64) S4096x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S4096x128.size a
  hwx2_3 : ∀ i : grid2.Coords, EltTy.bits .f32 = 32 ∨ (Rect.block (s := S4096x128) S4096x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x100.size a ≤ S128x100.size a
  hwx2_7 : ∀ i : grid2.Coords, EltTy.bits .f32 = 32 ∨ (Rect.block (s := S128x100) S128x100.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x100.size a ≤ S1x100.size a
  hwx2_8 : ∀ i : grid2.Coords, EltTy.bits .f32 = 32 ∨ (Rect.block (s := S1x100) S1x100.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S4096x100.size a ≤ S4096x100.size a
  hwx2_9 : ∀ i : grid2.Coords, EltTy.bits .f32 = 32 ∨ (Rect.block (s := S4096x100) S4096x100.size (cc2_transform_9 i) (hinb2_9 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x100_S4096x100_1_0_0_1_n_n : DotDims S4096x128 S128x100 S4096x100 where
  lhsContracting := [1]
  rhsContracting := [0]
  lhsNonContracting := [0]
  rhsNonContracting := [1]
  lhsBatch := []
  rhsBatch := []
  wf := dot_S4096x128_S128x100_S4096x100_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S4096x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S4096x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg10) S128x100.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v57) S1x100.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v58) S4096x100.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S4096x64 : Shape := ⟨2, ![4096, 64]⟩
abbrev S4096 : Shape := ⟨1, ![4096]⟩
abbrev S128x128 : Shape := ⟨2, ![128, 128]⟩
abbrev S128 : Shape := ⟨1, ![128]⟩
abbrev S64x128 : Shape := ⟨2, ![64, 128]⟩
abbrev S256x128 : Shape := ⟨2, ![256, 128]⟩
abbrev S128x100 : Shape := ⟨2, ![128, 100]⟩
abbrev S100 : Shape := ⟨1, ![100]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S4096x128 : Shape := ⟨2, ![4096, 128]⟩
abbrev S4096x1 : Shape := ⟨2, ![4096, 1]⟩
abbrev S4096x256 : Shape := ⟨2, ![4096, 256]⟩
abbrev S4096x100 : Shape := ⟨2, ![4096, 100]⟩
abbrev S1x100 : Shape := ⟨2, ![1, 100]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S4096x64, .f32⟩
  | .hbm, ⟨3, _⟩ => ⟨S4096, .i32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x100, .f32⟩
  | .hbm, ⟨11, _⟩ => ⟨S100, .f32⟩
  | .hbm, ⟨12, _⟩ => ⟨S100000x128, .f32⟩
  | .hbm, ⟨13, _⟩ => ⟨S100000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S_, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S4096x128, .f32⟩
  | .hbm, ⟨76, _⟩ => ⟨S1x128, .f32⟩
  | .hbm, ⟨77, _⟩ => ⟨S4096x128, .f32⟩
  | .hbm, ⟨78, _⟩ => ⟨S4096x128, .f32⟩
  | .hbm, ⟨79, _⟩ => ⟨S_, .f32⟩
  | .hbm, ⟨80, _⟩ => ⟨S4096x128, .f32⟩
  | .hbm, ⟨81, _⟩ => ⟨S4096x128, .f32⟩
  | .hbm, ⟨82, _⟩ => ⟨S_, .i32⟩
  | .hbm, ⟨83, _⟩ => ⟨S4096, .i32⟩
  | .hbm, ⟨84, _⟩ => ⟨S4096, .i1⟩
  | .hbm, ⟨85, _⟩ => ⟨S_, .i32⟩
  | .hbm, ⟨86, _⟩ => ⟨S4096, .i32⟩
  | .hbm, ⟨87, _⟩ => ⟨S4096, .i32⟩
  | .hbm, ⟨88, _⟩ => ⟨S4096, .i32⟩
  | .hbm, ⟨89, _⟩ => ⟨S4096x1, .i32⟩
  | .hbm, ⟨90, _⟩ => ⟨S4096x128, .f32⟩
  | .hbm, ⟨91, _⟩ => ⟨S4096x256, .f32⟩
  | .hbm, ⟨92, _⟩ => ⟨S4096x128, .f32⟩
  | .hbm, ⟨93, _⟩ => ⟨S1x128, .f32⟩
  | .hbm, ⟨94, _⟩ => ⟨S4096x128, .f32⟩
  | .hbm, ⟨95, _⟩ => ⟨S4096x128, .f32⟩
  | .hbm, ⟨96, _⟩ => ⟨S_, .f32⟩
  | .hbm, ⟨97, _⟩ => ⟨S4096x128, .f32⟩
  | .hbm, ⟨98, _⟩ => ⟨S4096x128, .f32⟩
  | .hbm, ⟨99, _⟩ => ⟨S4096x100, .f32⟩
  | .hbm, ⟨100, _⟩ => ⟨S1x100, .f32⟩
  | .hbm, ⟨101, _⟩ => ⟨S4096x100, .f32⟩
  | .hbm, ⟨102, _⟩ => ⟨S4096x100, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call2_cst : Ref sig .tc := ⟨.hbm, 79, rfl⟩
abbrev main_call2_v0 : Ref sig .tc := ⟨.hbm, 80, rfl⟩
abbrev main_v52 : Ref sig .tc := ⟨.hbm, 81, rfl⟩
abbrev main_c_9 : Ref sig .tc := ⟨.hbm, 82, rfl⟩
abbrev main_v53 : Ref sig .tc := ⟨.hbm, 83, rfl⟩
abbrev main_v54 : Ref sig .tc := ⟨.hbm, 84, rfl⟩
abbrev main_c_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call3_cst : Ref sig .tc := ⟨.hbm, 96, rfl⟩
abbrev main_call3_v0 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x128_S4096x128_S4096x256_d1 : Shape.Concatenates [S4096x128, S4096x128] S4096x256 1
  bcast_S100_S1x100_1 : S100.BroadcastsInDim S1x100 (![1] : Fin 1 → Fin S1x100.rank)
  bcast_S1x100_S4096x100_0_1 : S1x100.BroadcastsInDim S4096x100 (![0, 1] : Fin 2 → Fin S4096x100.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4096x64_S64x128_S4096x128_1_0_0_1_n_n_wf : DotDims.WF S4096x64 S64x128 S4096x128 [1] [0] [0] [1] [] []
  gather_S100000x128_S4096x1_S4096x128_1_0_n_n_0_1_1128_wf : GatherDims.WF S100000x128 S4096x1 S4096x128 [1] [0] [] [0] [] 1 ![1, 128]
  dot_S4096x256_S256x128_S4096x128_1_0_0_1_n_n_wf : DotDims.WF S4096x256 S256x128 S4096x128 [1] [0] [0] [1] [] []
  dot_S4096x128_S128x100_S4096x100_1_0_0_1_n_n_wf : DotDims.WF S4096x128 S128x100 S4096x100 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x100_S4096x100_1_0_0_1_n_n : DotDims S4096x128 S128x100 S4096x100 where
  lhsContracting := [1]
  rhsContracting := [0]
  lhsNonContracting := [0]
  rhsNonContracting := [1]
  lhsBatch := []
  rhsBatch := []
  wf := dot_S4096x128_S128x100_S4096x100_1_0_0_1_n_n_wf

class Facts : Prop extends Facts₀ where

variable [Facts]
-- ==== Proof.Stages.lean ====
/-
  The reference's result, cut into its five stages, each a function of the arrays that enter it:
  the node features times the convolution's weights; the normalised neighbourhood sum of those rows (degrees counted
  over the edges with one self loop per node, each message scaled by the inverse square roots of its two end points'
  degrees, added into its destination's row); the node embedding (bias added, negative part dropped); the rows of
  the embedding the trucks point at; and the truck-side layers over those rows. The reference's composed result term
  is these five applied in order, by definition (stated where that term is in scope).
-/
import proofs.«113145_j38783554683458_1_alg».proof.ReferenceIdeal
import proofs.«113145_j38783554683458_1_alg».proof.Proof.Gen.ReferenceIdeal
import Idealize.ShloMosaic.PureOps.Ideal

noncomputable section

namespace Cert.ReferenceIdeal.Stages

open Cert.ReferenceIdeal Cert.ReferenceIdeal.Gen Idealize.ShloMosaic Idealize.ShloMosaic.TcCoe Idealize.SL.Sem

variable {F : FTy → Type} [FloatOps F]

/-- Stage 1: the node features times the convolution's weights, `x · W`. -/
def nodeProduct (a0 : (⟨S100000x128, .f32⟩ : BufTy).Contents (Elt F)) (a4 : (⟨S128x128, .f32⟩ : BufTy).Contents (Elt F)) : (⟨S100000x128, .f32⟩ : BufTy).Contents (Elt F) :=
  Host.dotGeneral dot_S100000x128_S128x128_S100000x128_1_0_0_1_n_n none a0 a4

set_option maxRecDepth 8192 in
/-- Stage 2: the normalised neighbourhood sum. With `src`, `dst` the edge list's two rows each followed by every node
    once (the self loops), `deg` the number of times a node occurs in `dst` and `d = deg^(-1/2)` where `deg > 0`, else `0`:
    row `n` is the sum over the messages `e` with `dst e = n` of `xw[src e] · (d[src e] · d[dst e])`. -/
def neighbourSum (xw : (⟨S100000x128, .f32⟩ : BufTy).Contents (Elt F)) (a1 : (⟨S2x1600000, .i32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0)) (mulf (Host.gather gather_S100000x128_S1700000x1_S1700000x128_1_0_n_n_0_1_1128 xw (broadcastInDim S1700000x1 ![0] bcast_S1700000_S1700000x1_0 (select (cmpi .slt (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0)))) (broadcastInDim S1700000x128 ![0, 1] bcast_S1700000x1_S1700000x128_0_1 (broadcastInDim S1700000x1 ![0] bcast_S1700000_S1700000x1_0 (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0))))))))

/-- Stage 3: the node embedding, `max (agg + b, 0)` with the bias along the feature axis. -/
def nodeEmbedding (agg : (⟨S100000x128, .f32⟩ : BufTy).Contents (Elt F)) (a5 : (⟨S128, .f32⟩ : BufTy).Contents (Elt F)) : (⟨S100000x128, .f32⟩ : BufTy).Contents (Elt F) :=
  maximumf (addf agg (broadcastInDim S100000x128 ![0, 1] bcast_S1x128_S100000x128_0_1 (broadcastInDim S1x128 ![1] bcast_S128_S1x128_1 a5))) (broadcastInDim S100000x128 ![] bcast_S_S100000x128 (constant S_ .f32 0x00000000#32))

/-- Stage 4: the embedding's rows at the trucks' targets (a negative target counted from the end). -/
def targetRows (emb : (⟨S100000x128, .f32⟩ : BufTy).Contents (Elt F)) (a3 : (⟨S4096, .i32⟩ : BufTy).Contents (Elt F)) : (⟨S4096x128, .f32⟩ : BufTy).Contents (Elt F) :=
  Host.gather gather_S100000x128_S4096x1_S4096x128_1_0_n_n_0_1_1128 emb (broadcastInDim S4096x1 ![0] bcast_S4096_S4096x1_0 (select (cmpi .slt a3 (broadcastInDim S4096 ![] bcast_S_S4096 (constantI S_ 32 0#32))) (addi a3 (broadcastInDim S4096 ![] bcast_S_S4096 (constantI S_ 32 100000#32))) a3))

/-- Stage 5: the truck-side layers: `relu (truck_x · W_truck + b_truck)` joined with the gathered rows along the feature
    axis, times `W_comb`, plus `b_comb`, its negative part dropped, times `W_out`, plus `b_out`. -/
def truckLayers (a2 : (⟨S4096x64, .f32⟩ : BufTy).Contents (Elt F)) (a6 : (⟨S64x128, .f32⟩ : BufTy).Contents (Elt F)) (a7 : (⟨S128, .f32⟩ : BufTy).Contents (Elt F)) (node : (⟨S4096x128, .f32⟩ : BufTy).Contents (Elt F))
    (a8 : (⟨S256x128, .f32⟩ : BufTy).Contents (Elt F)) (a9 : (⟨S128, .f32⟩ : BufTy).Contents (Elt F)) (a10 : (⟨S128x100, .f32⟩ : BufTy).Contents (Elt F)) (a11 : (⟨S100, .f32⟩ : BufTy).Contents (Elt F)) : (⟨S4096x100, .f32⟩ : BufTy).Contents (Elt F) :=
  addf (Host.dotGeneral dot_S4096x128_S128x100_S4096x100_1_0_0_1_n_n none (maximumf (addf (Host.dotGeneral dot_S4096x256_S256x128_S4096x128_1_0_0_1_n_n none (concatenate S4096x256 1 [⟨S4096x128, (maximumf (addf (Host.dotGeneral dot_S4096x64_S64x128_S4096x128_1_0_0_1_n_n none a2 a6) (broadcastInDim S4096x128 ![0, 1] bcast_S1x128_S4096x128_0_1 (broadcastInDim S1x128 ![1] bcast_S128_S1x128_1 a7))) (broadcastInDim S4096x128 ![] bcast_S_S4096x128 (constant S_ .f32 0x00000000#32)))⟩, ⟨S4096x128, node⟩] concatenates_S4096x128_S4096x128_S4096x256_d1) a8) (broadcastInDim S4096x128 ![0, 1] bcast_S1x128_S4096x128_0_1 (broadcastInDim S1x128 ![1] bcast_S128_S1x128_1 a9))) (broadcastInDim S4096x128 ![] bcast_S_S4096x128 (constant S_ .f32 0x00000000#32))) a10) (broadcastInDim S4096x100 ![0, 1] bcast_S1x100_S4096x100_0_1 (broadcastInDim S1x100 ![1] bcast_S100_S1x100_1 a11))

end Cert.ReferenceIdeal.Stages

end
-- ==== Proof.MatmulRegion.lean ====
/-
  The first region's result array. The grid's twenty points each multiply a block of 5000 rows of the node features by
  the whole weight matrix into a zero accumulator; the twenty row blocks tile the array, so it ends holding the product
  of the whole arrays: the reference's first stage.
-/
import proofs.«113145_j38783554683458_1_alg».proof.Proof.Gen.KernelIdeal.Frame
import proofs.«113145_j38783554683458_1_alg».proof.Proof.Stages
import proofs.«113145_j38783554683458_1_alg».proof.Proof.RefRead
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

/-- The left operand's row is the result's row. -/
theorem lhs_block_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction index. -/
theorem lhs_block_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction index. -/
theorem rhs_block_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the result's column. -/
theorem rhs_block_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Where the block product at `i` reads the block of features: row `i 0`, column `k`. -/
abbrev lidx_block (i : S5000x128.Idx) (k : Fin 128) : S5000x128.Idx := fun a => match a with
  | ⟨0, _⟩ => ⟨(i 0).val, (i 0).isLt⟩
  | ⟨1, _⟩ => ⟨k.val, k.isLt⟩
/-- Where it reads the weights: row `k`, column `i 1`. -/
abbrev ridx_block (i : S5000x128.Idx) (k : Fin 128) : S128x128.Idx := fun a => match a with
  | ⟨0, _⟩ => ⟨k.val, k.isLt⟩
  | ⟨1, _⟩ => ⟨(i 1).val, (i 1).isLt⟩

/-- The body's payload at an index of the block: the sum over the 128 feature columns of the block's entry times the
    weight (the accumulator is zero and the narrowing of the operands is the identity on extended reals). -/
theorem pay_apply (x0 : Vec Ideal S5000x128 .f32) (x1 : Vec Ideal S128x128 .f32) (i : S5000x128.Idx) :
    k0_pay1 (F := Ideal) x0 x1 i = ∑ k : Fin 128, x0 (lidx_block i k) * x1 (ridx_block i k) := by
  unfold k0_pay1
  show FloatOps.matmul dot_S5000x128_S128x128_S5000x128_1_0_0_1_n_n none (truncf (F := Ideal) .bf16 x0 bitsLt_bf16_f32) (truncf (F := Ideal) .bf16 x1 bitsLt_bf16_f32) (constant (F := Ideal) S5000x128 .f32 0x00000000#32) i = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = lidx_block i k := funext fun a => Fin.ext (by
    match a with
    | ⟨0, _⟩ => exact lhs_block_0 _ _
    | ⟨1, _⟩ => exact (lhs_block_1 _ _).trans hk)
  have er : dot_S5000x128_S128x128_S5000x128_1_0_0_1_n_n.rhsIdx i ((ValueIdx.contrEquiv1 dot_S5000x128_S128x128_S5000x128_1_0_0_1_n_n 128 rfl rfl).symm k) = ridx_block i k := funext fun a => Fin.ext (by
    match a with
    | ⟨0, _⟩ => exact (rhs_block_0 _ _).trans hk
    | ⟨1, _⟩ => exact rhs_block_1 _ _)
  rw [el, er]
  rfl

theorem zero_offsets : (![0, 0] : Fin 2 → Nat) = fun _ => 0 := funext fun a => by fin_cases a <;> rfl

/-- The printed index maps, decided over the grid: at point `t` the features' window and the result's window are both
    at row block `t`, column block 0, and the weights' window is at block (0, 0). -/
theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- One entry of a row block of the product. If the block `x0` is rows `5000 r …` of the array `a0` and the block `x1`
    is the array `a4`, the payload at `j` is the whole product at row `5000 r + j 0`, column `j 1`: both are the sum
    over `k` of the feature at (row, `k`) times the weight at (`k`, column). -/
theorem block_apply (x0 : Vec Ideal S5000x128 .f32) (x1 : Vec Ideal S128x128 .f32)
    (a0 : (⟨Cert.ReferenceIdeal.S100000x128, .f32⟩ : BufTy).Contents (Elt Ideal))
    (a4 : (⟨Cert.ReferenceIdeal.S128x128, .f32⟩ : BufTy).Contents (Elt Ideal)) (r : Nat)
    (h0 : ∀ (y : S5000x128.Idx) (i : Cert.ReferenceIdeal.S100000x128.Idx),
      (i 0).val = r * 5000 + (y 0).val → (i 1).val = (y 1).val → x0 y = a0 i)
    (h1 : ∀ (y : S128x128.Idx) (i : Cert.ReferenceIdeal.S128x128.Idx),
      (i 0).val = (y 0).val → (i 1).val = (y 1).val → x1 y = a4 i)
    (j : S5000x128.Idx) (i : Cert.ReferenceIdeal.S100000x128.Idx)
    (hi0 : (i 0).val = r * 5000 + (j 0).val) (hi1 : (i 1).val = (j 1).val) :
    k0_pay1 (F := Ideal) x0 x1 j = Cert.ReferenceIdeal.Stages.nodeProduct (F := Ideal) a0 a4 i := by
  rw [pay_apply]
  show _ = Cert.ReferenceIdeal.Read.val_main_v0 (F := Ideal) a0 a4 i
  rw [Cert.ReferenceIdeal.Read.val_main_v0_apply]
  refine Finset.sum_congr rfl fun k _ => ?_
  rw [h0 (lidx_block j k) (Cert.ReferenceIdeal.Read.lidx_main_v0 i k) hi0 rfl,
    h1 (ridx_block j k) (Cert.ReferenceIdeal.Read.ridx_main_v0 i k) rfl hi1]

/-- The features' window at point `t` holds rows `5000 t …` of the features as the region finds them. -/
theorem features_block_apply (c : Dev nD) (t : Fin cfg0.N) (y : S5000x128.Idx) (i : S100000x128.Idx)
    (e0 : (i 0).val = t.val * 5000 + (y 0).val) (e1 : (i 1).val = (y 1).val) :
    (iblk0 V c 0 t : Vec Ideal S5000x128 .f32) y = (V c main_arg0 : S100000x128.Idx → Elt Ideal .f32) i := by
  obtain ⟨f0, f1, -, -, -, -⟩ := index_facts t
  unfold iblk0
  rw [View.read_apply]
  show V c main_arg0 (((cfg0.win 0).blk t).view.emb y) = V c main_arg0 i
  congr 1
  funext a
  apply Fin.ext
  match a with
  | ⟨0, _⟩ => show win0_0.index t (0 : Fin 2) * 5000 + 1 * (y 0).val = (i 0).val; rw [f0, e0]; omega
  | ⟨1, _⟩ => show win0_0.index t (1 : Fin 2) * 128 + 1 * (y 1).val = (i 1).val; rw [f1, e1]; omega

/-- The weights' window holds the whole weight matrix at every point. -/
theorem weights_block_apply (c : Dev nD) (t : Fin cfg0.N) (y : S128x128.Idx) (i : S128x128.Idx)
    (e0 : (i 0).val = (y 0).val) (e1 : (i 1).val = (y 1).val) :
    (iblk0 V c 1 t : Vec Ideal S128x128 .f32) y = (V c main_arg4 : S128x128.Idx → Elt Ideal .f32) i := by
  obtain ⟨-, -, f2, f3, -, -⟩ := index_facts t
  unfold iblk0
  rw [View.read_apply]
  show V c main_arg4 (((cfg0.win 1).blk t).view.emb y) = V c main_arg4 i
  congr 1
  funext a
  apply Fin.ext
  match a with
  | ⟨0, _⟩ => show win0_1.index t (0 : Fin 2) * 128 + 1 * (y 0).val = (i 0).val; rw [f2, e0]; omega
  | ⟨1, _⟩ => show win0_1.index t (1 : Fin 2) * 128 + 1 * (y 1).val = (i 1).val; rw [f3, e1]; omega

/-- What point `t` writes back is block `t` of the product of the arrays the region is entered with. -/
theorem flushed_eq (c : Dev nD) (t : Fin cfg0.N) :
    (dat0 (F := Ideal) V c).flushed 2 t = ((cfg0.win 2).blk t).view.read (Elt Ideal)
      (Cert.ReferenceIdeal.Stages.nodeProduct (F := Ideal) (V c main_arg0) (V c main_arg4)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨-, -, -, -, f4, f5⟩ := index_facts t
  funext j
  show k0_pay1 (F := Ideal) (iblk0 V c 0 t) (iblk0 V c 1 t) j
    = Cert.ReferenceIdeal.Stages.nodeProduct (F := Ideal) (V c main_arg0) (V c main_arg4) (((cfg0.win 2).blk t).view.emb j)
  refine block_apply _ _ _ _ t.val (fun y i e0 e1 => features_block_apply V c t y i e0 e1)
    (fun y i e0 e1 => weights_block_apply V c t y i e0 e1) j _ ?_ ?_
  · show win0_2.index t (0 : Fin 2) * 5000 + 1 * (j 0).val = t.val * 5000 + (j 0).val; rw [f4]; omega
  · show win0_2.index t (1 : Fin 2) * 128 + 1 * (j 1).val = (j 1).val; rw [f5]; omega

/-- An index of the array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The twenty row blocks tile the array: row `r` is in the block of point `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, f4, f5⟩ := index_facts t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; rw [f4, ht]; omega
  | ⟨1, _⟩ => show win0_2.index t (1 : Fin 2) * 128 ≤ (i 1).val ∧ (i 1).val < win0_2.index t (1 : Fin 2) * 128 + 128; rw [f5]; omega

/-- After the first region the array of its output window holds the features times the weights, whatever the contents
    `V` the region is entered with. -/
theorem array_eq (c : Dev nD) :
    (dat0 (F := Ideal) V c).arrAt 2 cfg0.N
      = Cert.ReferenceIdeal.Stages.nodeProduct (F := Ideal) (V c main_arg0) (V c main_arg4) :=
  (dat0 (F := Ideal) V c).arrAt_eq_of_cover 2 _ (fun t _ => flushed_eq V c t) cover

end Cert.KernelIdeal.Region0

end
-- ==== Proof.BiasReluRegion.lean ====
/-
  The second region's result array. Each of the twenty points adds the bias row to a block of 5000 rows of the
  aggregated messages and drops the negative part; the row blocks tile the array, so it ends holding the reference's
  node embedding of the aggregated array and the bias.
-/
import proofs.«113145_j38783554683458_1_alg».proof.Proof.Gen.KernelIdeal.Frame
import proofs.«113145_j38783554683458_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

open Idealize.ShloMosaic.ValueIdx

/-! ## One element of the reference's node embedding and of the body's payload -/

/-- The node embedding at row `r`, column `q`: the aggregated entry plus the bias at `q`, its negative part dropped. -/
theorem nodeEmbedding_apply (agg : (⟨S100000x128, .f32⟩ : BufTy).Contents (Elt Ideal)) (b : Vec Ideal S128 .f32)
    (r : Fin 100000) (q : Fin 128) :
    Cert.ReferenceIdeal.Stages.nodeEmbedding (F := Ideal) agg b (ix2 r q)
      = max (agg (ix2 r q) + b (ix1 q)) (Ideal.ofBits .f32 0x00000000#32) := by
  unfold Cert.ReferenceIdeal.Stages.nodeEmbedding
  rw [maximumf_apply, addf_apply]
  -- the bias, laid out as one row and that row repeated down the array, read at (r, q) is the bias at q
  have hbias : broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b) (ix2 r q) = b (ix1 q) := by
    refine (broadcastInDim_apply _ _ _ (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)])).trans ?_
    exact broadcastInDim_apply _ _ b (ix2 (0 : Fin 1) q) (ix1 q) (fun a => match a with
      | ⟨0, _⟩ => by show q.val = if (128 : Nat) = 1 then 0 else q.val; rw [if_neg (by decide)])
  -- the scalar zero repeated over the array, read anywhere, is the zero word's value
  have hzero : broadcastInDim Cert.ReferenceIdeal.S100000x128 ![] Cert.ReferenceIdeal.Gen.bcast_S_S100000x128
      (constant (F := Ideal) Cert.ReferenceIdeal.S_ .f32 0x00000000#32) (ix2 r q) = Ideal.ofBits .f32 0x00000000#32 :=
    (broadcastInDim_apply _ _ _ (ix2 r q) ix0 (fun a => a.elim0)).trans rfl
  rw [hbias, hzero]

/-- The body's payload at row `p`, column `q` of its block: the block's entry plus the one bias row's entry at `q`,
    its negative part dropped. -/
theorem payload_apply (x0 : Vec Ideal S5000x128 .f32) (x1 : Vec Ideal S1x128 .f32) (p : Fin 5000) (q : Fin 128) :
    k1_pay1 (F := Ideal) x0 x1 (ix2 p q)
      = max (x0 (ix2 p q) + x1 (ix2 (0 : Fin 1) q)) (Ideal.ofBits .f32 0x00000000#32) := by
  unfold k1_pay1
  rw [shapeCast_self, shapeCast_self, maximumf_apply, addf_apply, broadcast_apply, broadcastTo_1b_ab_apply]
  rfl

/-! ## The windows' blocks, read off their arrays -/

theorem zero_offsets : (![0, 0] : Fin 2 → Nat) = fun _ => 0 := funext fun a => by fin_cases a <;> rfl

/-- The printed index maps, decided over the grid: at point `t` the first operand's and the output's row block is block `t`,
    every column block index is zero, and the bias row's window stays on its one block. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The first operand's block at point `t`, at (p, q), is its array's entry at row `5000 t + p`, column `q`. -/
theorem block0_apply (c : Dev nD) (t : Fin cfg1.N) (p : Fin 5000) (q : Fin 128) (r : Fin 100000)
    (hr : r.val = t.val * 5000 + p.val) :
    (iblk1 (F := Ideal) V c 0 t : Vec Ideal S5000x128 .f32) (ix2 p q)
      = (V c main_v43 : S100000x128.Idx → Elt Ideal .f32) (ix2 r q) := by
  obtain ⟨e0, e1, -, -, -, -⟩ := index_facts t
  unfold iblk1
  rw [View.read_apply]
  show V c main_v43 _ = V c main_v43 _
  congr 1
  funext a
  apply Fin.ext
  match a with
  | ⟨0, _⟩ => show win1_0.index t 0 * 5000 + 1 * p.val = r.val; rw [e0, hr]; omega
  | ⟨1, _⟩ => show win1_0.index t 1 * 128 + 1 * q.val = q.val; rw [e1]; omega

/-- The bias row's block, the same at every point, at (0, q) is the bias at `q`: the one-row array is the bias with a unit
    axis put in front. -/
theorem block1_apply (c : Dev nD) (b : Vec Ideal S128 .f32)
    (hb : V c main_v44 = shapeCast S1x128 b shapeCasts_S128_S1x128) (t : Fin cfg1.N) (q : Fin 128) :
    (iblk1 (F := Ideal) V c 1 t : Vec Ideal S1x128 .f32) (ix2 (0 : Fin 1) q) = b (ix1 q) := by
  obtain ⟨-, -, e2, e3, -, -⟩ := index_facts t
  unfold iblk1
  rw [View.read_apply]
  show V c main_v44 (((cfg1.win 1).blk t).view.emb (ix2 (0 : Fin 1) q)) = _
  have hemb : ((cfg1.win 1).blk t).view.emb (ix2 (0 : Fin 1) q) = (ix2 (0 : Fin 1) q : S1x128.Idx) := by
    funext a; apply Fin.ext
    match a with
    | ⟨0, _⟩ => show win1_1.index t 0 * 1 + 1 * 0 = 0; rw [e2]
    | ⟨1, _⟩ => show win1_1.index t 1 * 128 + 1 * q.val = q.val; rw [e3]; omega
  rw [hemb, hb]
  exact shapeCast_a_1a_apply b _ (0 : Fin 1) q

/-! ## What a point writes back, and the cover -/

/-- WHAT POINT `t` WRITES BACK is block `t` of the node embedding of the first operand's array and the bias. -/
theorem flushed_eq (c : Dev nD) (b : Vec Ideal S128 .f32)
    (hb : V c main_v44 = shapeCast S1x128 b shapeCasts_S128_S1x128) (t : Fin cfg1.N) :
    (dat1 (F := Ideal) V c).flushed 2 t
      = ((cfg1.win 2).blk t).view.read (Elt Ideal)
          (Cert.ReferenceIdeal.Stages.nodeEmbedding (F := Ideal) (V c main_v43) b) := by
  show (cfg1.win 2).cut (grid1.coords t) ((dat1 (F := Ideal) V c).after 2 t) = _
  rw [after1_2]
  unfold out1_2
  rw [View.canon_unit_zero zero_offsets]
  simp only [View.ld_unit_zero (S := S5000x128) zero_offsets, View.ld_unit_zero (S := S1x128) zero_offsets]
  refine funext fun (j : S5000x128.Idx) => ?_
  obtain ⟨p, q, rfl⟩ : ∃ (p : Fin 5000) (q : Fin 128), j = ix2 p q := ⟨j 0, j 1, eq_ix2 j⟩
  obtain ⟨-, -, -, -, e4, e5⟩ := index_facts t
  have ht : t.val < 20 := lt_of_lt_of_eq t.isLt N_1
  -- the row of the array under row `p` of the block
  have hr : t.val * 5000 + p.val < 100000 := by omega
  show k1_pay1 (F := Ideal) (iblk1 V c 0 t) (iblk1 V c 1 t) (ix2 p q)
    = Cert.ReferenceIdeal.Stages.nodeEmbedding (F := Ideal) (V c main_v43) b (((cfg1.win 2).blk t).view.emb (ix2 p q))
  have hemb : ((cfg1.win 2).blk t).view.emb (ix2 p q) = (ix2 ⟨t.val * 5000 + p.val, hr⟩ q : S100000x128.Idx) := by
    funext a; apply Fin.ext
    match a with
    | ⟨0, _⟩ => show win1_2.index t 0 * 5000 + 1 * p.val = t.val * 5000 + p.val; rw [e4]; omega
    | ⟨1, _⟩ => show win1_2.index t 1 * 128 + 1 * q.val = q.val; rw [e5]; omega
  rw [hemb, payload_apply, nodeEmbedding_apply, block0_apply V c t p q ⟨_, hr⟩ rfl, block1_apply V c b hb t q]

/-- An index of the array is in point `t`'s block iff each coordinate is in the block's range on its axis. -/
theorem mem_block (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- THE COVER: row `r` of the array lies in the block of point `r / 5000`, which is written back. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, e4, e5⟩ := index_facts t
  refine ⟨t, flush1_2 t, ?_⟩
  rw [mem_block]
  intro a
  match a with
  | ⟨0, _⟩ =>
    show win1_2.index t 0 * 5000 ≤ (i 0).val ∧ (i 0).val < win1_2.index t 0 * 5000 + 5000
    rw [e4, ht]; omega
  | ⟨1, _⟩ =>
    show win1_2.index t 1 * 128 ≤ (i 1).val ∧ (i 1).val < win1_2.index t 1 * 128 + 128
    rw [e5]; omega

/-- After the second region the array of its output window holds `max (agg + b, 0)`, where `agg` is what the region finds
    in its first operand's array and the second operand's array is the bias `b` laid out as one row. -/
theorem array_eq (c : Dev nD) (b : Vec Ideal S128 .f32)
    (hb : V c main_v44 = shapeCast S1x128 b shapeCasts_S128_S1x128) :
    (dat1 (F := Ideal) V c).arrAt 2 cfg1.N
      = Cert.ReferenceIdeal.Stages.nodeEmbedding (F := Ideal) (V c main_v43) b :=
  (dat1 (F := Ideal) V c).arrAt_eq_of_cover 2 _ (fun t _ => flushed_eq V c b hb t) cover

end Cert.KernelIdeal.Region1

end
-- ==== Proof.LastRegion.lean ====
/-
  The last region's result array. Its grid has one point and every window's block is its whole array (block index zero,
  block size the array's size): the body reads the nine operand arrays whole and stores one value over the whole result
  array, so the array ends holding that stored value of the operands as the region finds them.
-/
import proofs.«113145_j38783554683458_1_alg».proof.Proof.Gen.KernelIdeal.Frame
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl

/-- Window 0's one block is its whole array. -/
theorem block0 (c : Dev nD) (t : Fin cfg2.N) : (iblk2 V c 0 t : Vec F S4096x64 .f32) = V c main_arg2 := by
  obtain rfl := fin_N2 t
  unfold iblk2
  exact Memref.read_access_unit_zero (Elt F) main_arg2 (off := fun a => win2_0.index t2_0 a * main_arg2.ty.shape.size a)
    (funext fun a => by fin_cases a <;> decide) _ (V c main_arg2)

/-- Window 1's one block is its whole array. -/
theorem block1 (c : Dev nD) (t : Fin cfg2.N) : (iblk2 V c 1 t : Vec F S64x128 .f32) = V c main_arg6 := by
  obtain rfl := fin_N2 t
  unfold iblk2
  exact Memref.read_access_unit_zero (Elt F) main_arg6 (off := fun a => win2_1.index t2_0 a * main_arg6.ty.shape.size a)
    (funext fun a => by fin_cases a <;> decide) _ (V c main_arg6)

/-- Window 2's one block is its whole array. -/
theorem block2 (c : Dev nD) (t : Fin cfg2.N) : (iblk2 V c 2 t : Vec F S1x128 .f32) = V c main_v55 := by
  obtain rfl := fin_N2 t
  unfold iblk2
  exact Memref.read_access_unit_zero (Elt F) main_v55 (off := fun a => win2_2.index t2_0 a * main_v55.ty.shape.size a)
    (funext fun a => by fin_cases a <;> decide) _ (V c main_v55)

/-- Window 3's one block is its whole array. -/
theorem block3 (c : Dev nD) (t : Fin cfg2.N) : (iblk2 V c 3 t : Vec F S4096x128 .f32) = V c main_v52 := by
  obtain rfl := fin_N2 t
  unfold iblk2
  exact Memref.read_access_unit_zero (Elt F) main_v52 (off := fun a => win2_3.index t2_0 a * main_v52.ty.shape.size a)
    (funext fun a => by fin_cases a <;> decide) _ (V c main_v52)

/-- Window 4's one block is its whole array. -/
theorem block4 (c : Dev nD) (t : Fin cfg2.N) : (iblk2 V c 4 t : Vec F S128x128 .f32) = V c main_v53 := by
  obtain rfl := fin_N2 t
  unfold iblk2
  exact Memref.read_access_unit_zero (Elt F) main_v53 (off := fun a => win2_4.index t2_0 a * main_v53.ty.shape.size a)
    (funext fun a => by fin_cases a <;> decide) _ (V c main_v53)

/-- Window 5's one block is its whole array. -/
theorem block5 (c : Dev nD) (t : Fin cfg2.N) : (iblk2 V c 5 t : Vec F S128x128 .f32) = V c main_v54 := by
  obtain rfl := fin_N2 t
  unfold iblk2
  exact Memref.read_access_unit_zero (Elt F) main_v54 (off := fun a => win2_5.index t2_0 a * main_v54.ty.shape.size a)
    (funext fun a => by fin_cases a <;> decide) _ (V c main_v54)

/-- Window 6's one block is its whole array. -/
theorem block6 (c : Dev nD) (t : Fin cfg2.N) : (iblk2 V c 6 t : Vec F S1x128 .f32) = V c main_v56 := by
  obtain rfl := fin_N2 t
  unfold iblk2
  exact Memref.read_access_unit_zero (Elt F) main_v56 (off := fun a => win2_6.index t2_0 a * main_v56.ty.shape.size a)
    (funext fun a => by fin_cases a <;> decide) _ (V c main_v56)

/-- Window 7's one block is its whole array. -/
theorem block7 (c : Dev nD) (t : Fin cfg2.N) : (iblk2 V c 7 t : Vec F S128x100 .f32) = V c main_arg10 := by
  obtain rfl := fin_N2 t
  unfold iblk2
  exact Memref.read_access_unit_zero (Elt F) main_arg10 (off := fun a => win2_7.index t2_0 a * main_arg10.ty.shape.size a)
    (funext fun a => by fin_cases a <;> decide) _ (V c main_arg10)

/-- Window 8's one block is its whole array. -/
theorem block8 (c : Dev nD) (t : Fin cfg2.N) : (iblk2 V c 8 t : Vec F S1x100 .f32) = V c main_v57 := by
  obtain rfl := fin_N2 t
  unfold iblk2
  exact Memref.read_access_unit_zero (Elt F) main_v57 (off := fun a => win2_8.index t2_0 a * main_v57.ty.shape.size a)
    (funext fun a => by fin_cases a <;> decide) _ (V c main_v57)

/-- What the body stores, of the operand arrays as the region finds them. -/
abbrev stored (c : Dev nD) : Vec F S4096x100 .f32 :=
  k2_pay1 (k2_pay2 (V c main_arg2) (V c main_arg6) (V c main_v55) (V c main_v52) (V c main_v53) (V c main_v54) (V c main_v56) (V c main_arg10)) (V c main_v57)

/-- The one write-back writes the stored value through the whole-array block. -/
theorem flushed_eq (c : Dev nD) (t : Fin cfg2.N) :
    (dat2 V c).flushed 9 t = ((cfg2.win 9).blk t).view.read (Elt F) (stored V c) := by
  show (cfg2.win 9).cut (grid2.coords t) ((dat2 V c).after 9 t) = _
  rw [after2_9]
  unfold out2_9
  rw [View.canon_unit_zero zeros2]
  simp only [View.ld_unit_zero (S := S4096x64) zeros2, View.ld_unit_zero (S := S64x128) zeros2, View.ld_unit_zero (S := S1x128) zeros2,
    View.ld_unit_zero (S := S4096x128) zeros2, View.ld_unit_zero (S := S128x128) zeros2, View.ld_unit_zero (S := S128x100) zeros2,
    View.ld_unit_zero (S := S1x100) zeros2]
  rw [block0, block1, block2, block3, block4, block5, block6, block7, block8]
  obtain rfl := fin_N2 t
  exact (Memref.read_access_unit_zero (Elt F) main_v58 (off := fun a => win2_9.index t2_0 a * main_v58.ty.shape.size a)
    (funext fun a => by fin_cases a <;> decide) _ (stored V c)).symm

/-- After the last region the result array holds the stored value. -/
theorem array_eq (c : Dev nD) : (dat2 V c).arrAt 9 cfg2.N = stored V c :=
  (dat2 V c).arrAt_eq_of_cover 9 (stored V c) (fun t _ => flushed_eq V c t) fun i =>
    ⟨t2_0, flush2_9 t2_0, by
      show i ∈ ((View.whole main_v58).slice (win2_9.rect t2_0)).set
      rw [View.set_slice_whole, Rect.mem_set_unit]
      intro a
      have h0 : (i 0 : Nat) < 4096 := (i 0).isLt
      have h1 : (i 1 : Nat) < 100 := (i 1).isLt
      match a with
      | ⟨0, _⟩ =>
        show win2_9.index t2_0 0 * win2_9.size 0 ≤ (i 0 : Nat) ∧ (i 0 : Nat) < win2_9.index t2_0 0 * win2_9.size 0 + win2_9.xsize (grid2.coords t2_0) 0
        rw [show win2_9.index t2_0 0 * win2_9.size 0 = 0 from by decide +kernel, show win2_9.xsize (grid2.coords t2_0) 0 = 4096 from by decide +kernel]; omega
      | ⟨1, _⟩ =>
        show win2_9.index t2_0 1 * win2_9.size 1 ≤ (i 1 : Nat) ∧ (i 1 : Nat) < win2_9.index t2_0 1 * win2_9.size 1 + win2_9.xsize (grid2.coords t2_0) 1
        rw [show win2_9.index t2_0 1 * win2_9.size 1 = 0 from by decide +kernel, show win2_9.xsize (grid2.coords t2_0) 1 = 100 from by decide +kernel]; omega⟩

end Cert.KernelIdeal.Region2

end
-- ==== Proof.SplitProduct.lean ====
/-
  The hidden layer of the truck side. The kernel multiplies the truck embedding by the top half of the combining
  weights and the gathered node rows by the bottom half and adds the two products; the reference joins the two arrays
  along the feature axis and multiplies once by the whole matrix. A sum over the 256 joined features is the sum over the
  first 128 plus the sum over the last 128: the two agree on the extended reals, where addition is commutative and
  associative.
-/
import proofs.«113145_j38783554683458_1_alg».proof.Proof.Gen.KernelIdeal.Skeleton
import proofs.«113145_j38783554683458_1_alg».proof.Proof.Stages
import proofs.«113145_j38783554683458_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen
open Idealize.ShloMosaic.ValueIdx

/-! ## One half product at an index

The kernel's product of a 4096 × 128 array with a 128 × 128 matrix into a zero accumulator: the entry at row `p`,
column `q` is the sum over the 128 contracted positions `k` of left `(p, k)` times right `(k, q)`. -/

/-- The left operand's row is the result's row. -/
theorem lhs_half_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
/-- The left operand's column is the contracted position. -/
theorem lhs_half_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
/-- The right operand's row is the contracted position. -/
theorem rhs_half_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
/-- The right operand's column is the result's column. -/
theorem rhs_half_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- A half product at `(p, q)`: the sum over `k` of left `(p, k)` times right `(k, q)`. -/
theorem half_product_apply (l : FVec Ideal S4096x128 .bf16) (r : FVec Ideal S128x128 .bf16) (p : Fin 4096) (q : Fin 128) :
    matmul dot_S4096x128_S128x128_S4096x128_1_0_0_1_n_n none l r (constant S4096x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p q) ((ValueIdx.contrEquiv1 dot_S4096x128_S128x128_S4096x128_1_0_0_1_n_n 128 rfl rfl).symm k) = ix2 p k := funext fun a => Fin.ext (by
    match a with
    | ⟨0, _⟩ => exact lhs_half_0 _ _
    | ⟨1, _⟩ => exact (lhs_half_1 _ _).trans hk)
  have er : dot_S4096x128_S128x128_S4096x128_1_0_0_1_n_n.rhsIdx (ix2 p q) ((ValueIdx.contrEquiv1 dot_S4096x128_S128x128_S4096x128_1_0_0_1_n_n 128 rfl rfl).symm k) = ix2 k q := funext fun a => Fin.ext (by
    match a with
    | ⟨0, _⟩ => exact (rhs_half_0 _ _).trans hk
    | ⟨1, _⟩ => exact rhs_half_1 _ _)
  rw [el, er]

/-! ## The joined product at an index -/

/-- The reference's product of the joined 4096 × 256 array with the 256 × 128 matrix at `(p, q)`: the sum over the
    256 contracted positions `k` of left `(p, k)` times right `(k, q)`. -/
theorem joined_product_apply (y : FVec Ideal Cert.ReferenceIdeal.S4096x256 .f32) (w : FVec Ideal Cert.ReferenceIdeal.S256x128 .f32)
    (p : Fin 4096) (q : Fin 128) :
    Host.dotGeneral (F := Ideal) Cert.ReferenceIdeal.dot_S4096x256_S256x128_S4096x128_1_0_0_1_n_n none y w (ix2 p q)
      = ∑ k : Fin 256, y (ix2 p k) * w (ix2 k q) := by
  simp only [Host.dotGeneral]
  rw [Ideal.dotGeneral_apply, ← Equiv.sum_comp (ValueIdx.contrEquiv1 Cert.ReferenceIdeal.dot_S4096x256_S256x128_S4096x128_1_0_0_1_n_n 256 rfl rfl).symm]
  refine Finset.sum_congr rfl fun k _ => ?_
  have hk := ValueIdx.contrEquiv1_symm_val Cert.ReferenceIdeal.dot_S4096x256_S256x128_S4096x128_1_0_0_1_n_n 256 rfl rfl k
  have el : Cert.ReferenceIdeal.dot_S4096x256_S256x128_S4096x128_1_0_0_1_n_n.lhsIdx (ix2 p q) ((ValueIdx.contrEquiv1 Cert.ReferenceIdeal.dot_S4096x256_S256x128_S4096x128_1_0_0_1_n_n 256 rfl rfl).symm k) = ix2 p k := funext fun a => Fin.ext (by
    match a with
    | ⟨0, _⟩ => exact Cert.ReferenceIdeal.Read.lhs_main_v61_0 _ _
    | ⟨1, _⟩ => exact (Cert.ReferenceIdeal.Read.lhs_main_v61_1 _ _).trans hk)
  have er : Cert.ReferenceIdeal.dot_S4096x256_S256x128_S4096x128_1_0_0_1_n_n.rhsIdx (ix2 p q) ((ValueIdx.contrEquiv1 Cert.ReferenceIdeal.dot_S4096x256_S256x128_S4096x128_1_0_0_1_n_n 256 rfl rfl).symm k) = ix2 k q := funext fun a => Fin.ext (by
    match a with
    | ⟨0, _⟩ => exact (Cert.ReferenceIdeal.Read.rhs_main_v61_0 _ _).trans hk
    | ⟨1, _⟩ => exact Cert.ReferenceIdeal.Read.rhs_main_v61_1 _ _)
  rw [el, er]

/-! ## The two halves of the weights and of the joined array -/

/-- Position `k` of the first 128 among the 256. -/
abbrev lo (k : Fin 128) : Fin 256 := ⟨k.val, Nat.lt_of_lt_of_le k.isLt (by decide)⟩
/-- Position `k` of the last 128 among the 256. -/
abbrev hi (k : Fin 128) : Fin 256 := ⟨128 + k.val, Nat.add_lt_add_left k.isLt 128⟩

/-- The top half of the weights: rows 0 to 127. -/
theorem top_half_apply (wc : FVec Ideal S256x128 .f32) (k q : Fin 128) :
    extractStridedSlice S128x128 ![0, 0] wc slices_S256x128_S128x128_0_0 (ix2 k q) = wc (ix2 (lo k) q) :=
  extractStridedSlice_apply ![0, 0] wc slices_S256x128_S128x128_0_0 (ix2 k q) (ix2 (lo k) q) (fun a => match a with
    | ⟨0, _⟩ => (Nat.zero_add k.val).symm
    | ⟨1, _⟩ => (Nat.zero_add q.val).symm)

/-- The bottom half of the weights: rows 128 to 255. -/
theorem bottom_half_apply (wc : FVec Ideal S256x128 .f32) (k q : Fin 128) :
    extractStridedSlice S128x128 ![128, 0] wc slices_S256x128_S128x128_128_0 (ix2 k q) = wc (ix2 (hi k) q) :=
  extractStridedSlice_apply ![128, 0] wc slices_S256x128_S128x128_128_0 (ix2 k q) (ix2 (hi k) q) (fun a => match a with
    | ⟨0, _⟩ => rfl
    | ⟨1, _⟩ => (Nat.zero_add q.val).symm)

/-- The joined array's first 128 columns are the first piece's. -/
theorem joined_lo (te node : FVec Ideal S4096x128 .f32) (p : Fin 4096) (k : Fin 128) :
    concatenate Cert.ReferenceIdeal.S4096x256 1 [⟨Cert.ReferenceIdeal.S4096x128, te⟩, ⟨Cert.ReferenceIdeal.S4096x128, node⟩]
      Cert.ReferenceIdeal.Gen.concatenates_S4096x128_S4096x128_S4096x256_d1 (ix2 p (lo k)) = te (ix2 p k) :=
  concatenate_pair_apply_left 1 te node Cert.ReferenceIdeal.Gen.concatenates_S4096x128_S4096x128_S4096x256_d1 (ix2 p (lo k)) rfl (ix2 p k)
    (fun b => match b with
      | ⟨0, _⟩ => rfl
      | ⟨1, _⟩ => rfl)

/-- The joined array's last 128 columns are the second piece's. -/
theorem joined_hi (te node : FVec Ideal S4096x128 .f32) (p : Fin 4096) (k : Fin 128) :
    concatenate Cert.ReferenceIdeal.S4096x256 1 [⟨Cert.ReferenceIdeal.S4096x128, te⟩, ⟨Cert.ReferenceIdeal.S4096x128, node⟩]
      Cert.ReferenceIdeal.Gen.concatenates_S4096x128_S4096x128_S4096x256_d1 (ix2 p (hi k)) = node (ix2 p k) :=
  concatenate_pair_apply_right 1 te node Cert.ReferenceIdeal.Gen.concatenates_S4096x128_S4096x128_S4096x256_d1 (ix2 p (hi k)) rfl rfl (ix2 p k)
    (fun b => match b with
      | ⟨0, _⟩ => fun _ => rfl
      | ⟨1, _⟩ => fun h => absurd rfl h)
    (Nat.add_comm k.val 128)

/-- A sum over the 256 positions is the sum over the first 128 plus the sum over the last 128. -/
theorem sum_halves (f : Fin 256 → EReal) : ∑ k : Fin 256, f k = ∑ k : Fin 128, f (lo k) + ∑ k : Fin 128, f (hi k) :=
  Fin.sum_univ_add (a := 128) (b := 128) f

/-- The two half products added are the one product of the joined array with the whole matrix. -/
theorem split_product (te node : FVec Ideal S4096x128 .f32) (wc : FVec Ideal S256x128 .f32) :
    addf (F := Ideal)
      (matmul dot_S4096x128_S128x128_S4096x128_1_0_0_1_n_n none
        (truncf .bf16 te bitsLt_bf16_f32)
        (truncf .bf16 (shapeCast S128x128 (extractStridedSlice S128x128 ![0, 0] wc slices_S256x128_S128x128_0_0) shapeCasts_S128x128_S128x128) bitsLt_bf16_f32)
        (constant S4096x128 .f32 0x00000000#32))
      (matmul dot_S4096x128_S128x128_S4096x128_1_0_0_1_n_n none
        (truncf .bf16 (shapeCast S4096x128 node shapeCasts_S4096x128_S4096x128) bitsLt_bf16_f32)
        (truncf .bf16 (shapeCast S128x128 (extractStridedSlice S128x128 ![128, 0] wc slices_S256x128_S128x128_128_0) shapeCasts_S128x128_S128x128) bitsLt_bf16_f32)
        (constant S4096x128 .f32 0x00000000#32))
    = Host.dotGeneral (F := Ideal) Cert.ReferenceIdeal.dot_S4096x256_S256x128_S4096x128_1_0_0_1_n_n none
        (concatenate Cert.ReferenceIdeal.S4096x256 1 [⟨Cert.ReferenceIdeal.S4096x128, te⟩, ⟨Cert.ReferenceIdeal.S4096x128, node⟩]
          Cert.ReferenceIdeal.Gen.concatenates_S4096x128_S4096x128_S4096x256_d1)
        wc := by
  funext i
  obtain ⟨p, q, rfl⟩ : ∃ (p : Fin 4096) (q : Fin 128), i = ix2 p q := ⟨i 0, i 1, eq_ix2 i⟩
  rw [addf_apply, half_product_apply, half_product_apply, joined_product_apply, sum_halves]
  refine congrArg₂ (· + ·) (Finset.sum_congr rfl fun k _ => ?_) (Finset.sum_congr rfl fun k _ => ?_)
  · rw [truncf_apply, truncf_apply, shapeCast_self, top_half_apply, joined_lo]
  · rw [truncf_apply, truncf_apply, shapeCast_self, shapeCast_self, bottom_half_apply, joined_hi]

end Cert.KernelIdeal.Region2

end
-- ==== Proof.TruckLayers.lean ====
/-
  The truck side, layer by layer. Each of the kernel's products is a matrix product into a zero accumulator of operands
  whose change of float format is the identity on the extended reals: the reference's product. Each bias, laid out as one
  row and spread over the rows, is the reference's bias spread the same way. With the hidden layer's two half products
  joined into one (the law proved beside this module), the kernel's stored value is the reference's last stage.
-/
import proofs.«113145_j38783554683458_1_alg».proof.Proof.Gen.KernelIdeal.Skeleton
import proofs.«113145_j38783554683458_1_alg».proof.Proof.Stages
import proofs.«113145_j38783554683458_1_alg».proof.Proof.SplitProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen

open Idealize.ShloMosaic.ValueIdx

namespace TruckLayers

/-- The first layer's product: into a zero accumulator, of operands whose change of format is the identity, the kernel's
    product is at every index the sum over the 64 contracted features of left times right, which is the reference's. -/
theorem product_in (a : FVec Ideal S4096x64 .f32) (b : FVec Ideal S64x128 .f32) :
    matmul (F := Ideal) dot_S4096x64_S64x128_S4096x128_1_0_0_1_n_n none
        (truncf .bf16 a bitsLt_bf16_f32) (truncf .bf16 b bitsLt_bf16_f32) (constant S4096x128 .f32 0x00000000#32)
      = Host.dotGeneral (F := Ideal) Cert.ReferenceIdeal.dot_S4096x64_S64x128_S4096x128_1_0_0_1_n_n none a b := by
  funext i
  simp only [matmul, Host.dotGeneral]
  rw [Ideal.matmul_constant_zero_apply, Ideal.dotGeneral_apply]
  rfl

/-- The last layer's product, likewise: the sum over the 128 hidden features. -/
theorem product_out (a : FVec Ideal S4096x128 .f32) (b : FVec Ideal S128x100 .f32) :
    matmul (F := Ideal) dot_S4096x128_S128x100_S4096x100_1_0_0_1_n_n none
        (truncf .bf16 a bitsLt_bf16_f32) (truncf .bf16 b bitsLt_bf16_f32) (constant S4096x100 .f32 0x00000000#32)
      = Host.dotGeneral (F := Ideal) Cert.ReferenceIdeal.dot_S4096x128_S128x100_S4096x100_1_0_0_1_n_n none a b := by
  funext i
  simp only [matmul, Host.dotGeneral]
  rw [Ideal.matmul_constant_zero_apply, Ideal.dotGeneral_apply]
  rfl

/-- A bias of 128 features laid out as one row and spread over the 4096 rows reads, at row `p` and column `q`, the bias
    at `q`; so does the reference's bias, spread along the feature axis and then over the rows. -/
theorem bias_row128 (b : FVec Ideal S128 .f32) :
    broadcastTo S4096x128 (shapeCast S1x128 (shapeCast S1x128 b shapeCasts_S128_S1x128) shapeCasts_S1x128_S1x128) broadcasts_S1x128_S4096x128
      = broadcastInDim Cert.ReferenceIdeal.S4096x128 ![0, 1] Cert.ReferenceIdeal.Gen.bcast_S1x128_S4096x128_0_1
          (broadcastInDim Cert.ReferenceIdeal.S1x128 ![1] Cert.ReferenceIdeal.Gen.bcast_S128_S1x128_1 b) := by
  funext i
  obtain ⟨p, q, rfl⟩ : ∃ (p : Fin 4096) (q : Fin 128), i = ix2 p q := ⟨i 0, i 1, eq_ix2 i⟩
  rw [shapeCast_self, broadcastTo_1b_ab_apply, shapeCast_a_1a_apply]
  refine Eq.symm ?_
  refine (broadcastInDim_apply _ Cert.ReferenceIdeal.Gen.bcast_S1x128_S4096x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ Cert.ReferenceIdeal.Gen.bcast_S128_S1x128_1 b (ix2 (0 : Fin 1) q) (ix1 q) (fun a => match a with
    | ⟨0, _⟩ => by show q.val = if (128 : Nat) = 1 then 0 else q.val; rw [if_neg (by decide)])

/-- The same for the last layer's bias of 100 features. -/
theorem bias_row100 (b : FVec Ideal S100 .f32) :
    broadcastTo S4096x100 (shapeCast S1x100 (shapeCast S1x100 b shapeCasts_S100_S1x100) shapeCasts_S1x100_S1x100) broadcasts_S1x100_S4096x100
      = broadcastInDim Cert.ReferenceIdeal.S4096x100 ![0, 1] Cert.ReferenceIdeal.Gen.bcast_S1x100_S4096x100_0_1
          (broadcastInDim Cert.ReferenceIdeal.S1x100 ![1] Cert.ReferenceIdeal.Gen.bcast_S100_S1x100_1 b) := by
  funext i
  obtain ⟨p, q, rfl⟩ : ∃ (p : Fin 4096) (q : Fin 100), i = ix2 p q := ⟨i 0, i 1, eq_ix2 i⟩
  rw [shapeCast_self, broadcastTo_1b_ab_apply, shapeCast_a_1a_apply]
  refine Eq.symm ?_
  refine (broadcastInDim_apply _ Cert.ReferenceIdeal.Gen.bcast_S1x100_S4096x100_0_1 _ (ix2 p q) (ix2 (0 : Fin 1) q) (fun a => match a with
    | ⟨0, _⟩ => by show 0 = if (1 : Nat) = 1 then 0 else p.val; rw [if_pos rfl]
    | ⟨1, _⟩ => by show q.val = if (100 : Nat) = 1 then 0 else q.val; rw [if_neg (by decide)])).trans ?_
  exact broadcastInDim_apply _ Cert.ReferenceIdeal.Gen.bcast_S100_S1x100_1 b (ix2 (0 : Fin 1) q) (ix1 q) (fun a => match a with
    | ⟨0, _⟩ => by show q.val = if (100 : Nat) = 1 then 0 else q.val; rw [if_neg (by decide)])

/-- The zero the negative parts are dropped against: the kernel spreads the scalar zero over the array, the reference
    spreads a rank-0 zero constant; at every index both are the zero word's value. -/
theorem zero_splat :
    broadcast S4096x128 (Scalar.ofBits (F := Ideal) .f32 0x00000000#32)
      = broadcastInDim Cert.ReferenceIdeal.S4096x128 ![] Cert.ReferenceIdeal.Gen.bcast_S_S4096x128
          (constant (F := Ideal) Cert.ReferenceIdeal.S_ .f32 0x00000000#32) := by
  funext i
  rfl

end TruckLayers

open TruckLayers in
/-- What the last kernel stores, of the truck features, the three weight matrices, the three biases and the gathered node
    rows, is the reference's truck-side stage of the same arrays. -/
theorem payload_eq (tx : FVec Ideal S4096x64 .f32) (wt : FVec Ideal S64x128 .f32) (bt : FVec Ideal S128 .f32)
    (node : FVec Ideal S4096x128 .f32) (wc : FVec Ideal S256x128 .f32) (bc : FVec Ideal S128 .f32)
    (wo : FVec Ideal S128x100 .f32) (bo : FVec Ideal S100 .f32) :
    k2_pay1 (F := Ideal) (k2_pay2 (F := Ideal) tx wt (shapeCast S1x128 bt shapeCasts_S128_S1x128) node
        (extractStridedSlice S128x128 ![0, 0] wc slices_S256x128_S128x128_0_0)
        (extractStridedSlice S128x128 ![128, 0] wc slices_S256x128_S128x128_128_0)
        (shapeCast S1x128 bc shapeCasts_S128_S1x128) wo)
      (shapeCast S1x100 bo shapeCasts_S100_S1x100)
    = Cert.ReferenceIdeal.Stages.truckLayers (F := Ideal) tx wt bt node wc bc wo bo := by
  unfold k2_pay1 k2_pay2 Cert.ReferenceIdeal.Stages.truckLayers
  dsimp only
  rw [product_in, zero_splat, bias_row128 bt, split_product, bias_row128 bc, product_out, bias_row100]

end Cert.KernelIdeal.Region2

end
-- ==== Proof.Fold.lean ====
/-
  The result array read back through the program. The last region stores, over its whole result array, the truck-side
  payload of nine arrays as it finds them. Three of them are arguments; five are arguments reshaped or sliced by the host
  operations just before the region; the ninth is the rows of the second region's result array at the trucks' targets.
  The second region's result array is the node embedding of what it finds: the normalised neighbourhood sum, which the
  host operations between the first two regions compute from the first region's result array, and the bias. The first
  region's result array is the node features times the weights. Read in this order the result is the reference's five
  stages applied to the argument arrays, the truck-side payload being the reference's last stage.
-/
import proofs.«113145_j38783554683458_1_alg».proof.Proof.Gen.KernelIdeal.Frame
import proofs.«113145_j38783554683458_1_alg».proof.Proof.Stages
import proofs.«113145_j38783554683458_1_alg».proof.Proof.MatmulRegion
import proofs.«113145_j38783554683458_1_alg».proof.Proof.BiasReluRegion
import proofs.«113145_j38783554683458_1_alg».proof.Proof.LastRegion
import proofs.«113145_j38783554683458_1_alg».proof.Proof.TruckLayers
import Idealize.ShloMosaic.Lib.StableHlo.Run

set_option maxRecDepth 16384

noncomputable section

open Idealize.ShloMosaic Idealize.ShloMosaic.TcCoe Idealize.SL.Sem
open Idealize.ShloMosaic.Pipeline (Dat)

open Idealize.ShloMosaic.StableHlo

namespace Cert.KernelIdeal.Fold

open Cert.KernelIdeal Cert.KernelIdeal.Gen

/-! ## The host stretches, from any contents -/

section Host

variable {F : FTy → Type} [FloatOps F] (W : Valuation τ sig (Elt F))

set_option maxHeartbeats 4000000 in
/-- The operations between the first two regions leave, in the second region's first operand, the normalised
    neighbourhood sum of the first region's result array over the edge list: operation for operation the reference's
    second stage. -/
theorem between_sum :
    StableHlo.after (hostOps1_2 (F := F)) (StableHlo.after (hostOps1_1 (F := F)) (StableHlo.after (hostOps1 (F := F)) W)) (Proc.devRef .tc main_v43)
      = Cert.ReferenceIdeal.Stages.neighbourSum (F := F) (W (Proc.devRef .tc main_v0)) (W (Proc.devRef .tc main_arg1)) := by
  dsimp only [hostOps1, hostOps1_1, hostOps1_2]
  after_results_simp
  rfl

/-- and, in its second operand, the convolution's bias laid out as one row. -/
theorem between_bias :
    StableHlo.after (hostOps1_2 (F := F)) (StableHlo.after (hostOps1_1 (F := F)) (StableHlo.after (hostOps1 (F := F)) W)) (Proc.devRef .tc main_v44)
      = shapeCast S1x128 (W (Proc.devRef .tc main_arg5)) shapeCasts_S128_S1x128 := by
  dsimp only [hostOps1, hostOps1_1, hostOps1_2]
  after_results_simp
  try rfl

/-- The operations before the last region gather the rows of the second region's result array at the trucks' targets:
    the reference's fourth stage. -/
theorem before_rows :
    StableHlo.after (hostOps2 (F := F)) W (Proc.devRef .tc main_v52)
      = Cert.ReferenceIdeal.Stages.targetRows (F := F) (W (Proc.devRef .tc main_v45)) (W (Proc.devRef .tc main_arg3)) := by
  dsimp only [hostOps2]; after_results; try rfl

/-- The top half of the combining weights. -/
theorem before_top :
    StableHlo.after (hostOps2 (F := F)) W (Proc.devRef .tc main_v53)
      = extractStridedSlice S128x128 ![0, 0] (W (Proc.devRef .tc main_arg8)) slices_S256x128_S128x128_0_0 := by
  dsimp only [hostOps2]; after_results; try rfl

/-- The bottom half of the combining weights. -/
theorem before_bottom :
    StableHlo.after (hostOps2 (F := F)) W (Proc.devRef .tc main_v54)
      = extractStridedSlice S128x128 ![128, 0] (W (Proc.devRef .tc main_arg8)) slices_S256x128_S128x128_128_0 := by
  dsimp only [hostOps2]; after_results; try rfl

/-- The three biases of the truck side, each laid out as one row. -/
theorem before_bias_truck :
    StableHlo.after (hostOps2 (F := F)) W (Proc.devRef .tc main_v55)
      = shapeCast S1x128 (W (Proc.devRef .tc main_arg7)) shapeCasts_S128_S1x128 := by
  dsimp only [hostOps2]; after_results; try rfl
theorem before_bias_comb :
    StableHlo.after (hostOps2 (F := F)) W (Proc.devRef .tc main_v56)
      = shapeCast S1x128 (W (Proc.devRef .tc main_arg9)) shapeCasts_S128_S1x128 := by
  dsimp only [hostOps2]; after_results; try rfl
theorem before_bias_out :
    StableHlo.after (hostOps2 (F := F)) W (Proc.devRef .tc main_v57)
      = shapeCast S1x100 (W (Proc.devRef .tc main_arg11)) shapeCasts_S100_S1x100 := by
  dsimp only [hostOps2]; after_results; try rfl

/-- They write no argument. -/
theorem before_keep2 : StableHlo.after (hostOps2 (F := F)) W (Proc.devRef .tc main_arg2) = W (Proc.devRef .tc main_arg2) := by
  dsimp only [hostOps2]; after_results
theorem before_keep3 : StableHlo.after (hostOps2 (F := F)) W (Proc.devRef .tc main_arg3) = W (Proc.devRef .tc main_arg3) := by
  dsimp only [hostOps2]; after_results
theorem before_keep6 : StableHlo.after (hostOps2 (F := F)) W (Proc.devRef .tc main_arg6) = W (Proc.devRef .tc main_arg6) := by
  dsimp only [hostOps2]; after_results
theorem before_keep7 : StableHlo.after (hostOps2 (F := F)) W (Proc.devRef .tc main_arg7) = W (Proc.devRef .tc main_arg7) := by
  dsimp only [hostOps2]; after_results
theorem before_keep8 : StableHlo.after (hostOps2 (F := F)) W (Proc.devRef .tc main_arg8) = W (Proc.devRef .tc main_arg8) := by
  dsimp only [hostOps2]; after_results
theorem before_keep9 : StableHlo.after (hostOps2 (F := F)) W (Proc.devRef .tc main_arg9) = W (Proc.devRef .tc main_arg9) := by
  dsimp only [hostOps2]; after_results
theorem before_keep10 : StableHlo.after (hostOps2 (F := F)) W (Proc.devRef .tc main_arg10) = W (Proc.devRef .tc main_arg10) := by
  dsimp only [hostOps2]; after_results
theorem before_keep11 : StableHlo.after (hostOps2 (F := F)) W (Proc.devRef .tc main_arg11) = W (Proc.devRef .tc main_arg11) := by
  dsimp only [hostOps2]; after_results

end Host

/-! ## The arguments at the boundaries the reads go through -/

section Run

variable (m : (ℓ : Loc nD τ sig) → Buf (Elt Ideal) ℓ) (ρ : Dev nD → PrngReg) (c : Dev nD)

/-- At the last region's entry every argument is as launched: the last region writes none (an argument it reads through
    an input window ends as it was entered, any other is not among its arrays), and the run ends with each as launched. -/
theorem entry2_arg2 : W6 m ρ c (Proc.devRef .tc main_arg2) = m ((c : Thread nD τ).loc main_arg2) :=
  ((W7_arr m ρ c 0).trans (((dat2 (V6 m ρ) c).arrAt_in 0 rfl _).trans (A_eq2 (V6 m ρ) c 0))).symm.trans (W7_main_arg2 m ρ c)
theorem entry2_arg3 : W6 m ρ c (Proc.devRef .tc main_arg3) = m ((c : Thread nD τ).loc main_arg3) :=
  (W7_of_ne m ρ c main_arg3 (by decide)).symm.trans (W7_main_arg3 m ρ c)
theorem entry2_arg6 : W6 m ρ c (Proc.devRef .tc main_arg6) = m ((c : Thread nD τ).loc main_arg6) :=
  ((W7_arr m ρ c 1).trans (((dat2 (V6 m ρ) c).arrAt_in 1 rfl _).trans (A_eq2 (V6 m ρ) c 1))).symm.trans (W7_main_arg6 m ρ c)
theorem entry2_arg7 : W6 m ρ c (Proc.devRef .tc main_arg7) = m ((c : Thread nD τ).loc main_arg7) :=
  (W7_of_ne m ρ c main_arg7 (by decide)).symm.trans (W7_main_arg7 m ρ c)
theorem entry2_arg8 : W6 m ρ c (Proc.devRef .tc main_arg8) = m ((c : Thread nD τ).loc main_arg8) :=
  (W7_of_ne m ρ c main_arg8 (by decide)).symm.trans (W7_main_arg8 m ρ c)
theorem entry2_arg9 : W6 m ρ c (Proc.devRef .tc main_arg9) = m ((c : Thread nD τ).loc main_arg9) :=
  (W7_of_ne m ρ c main_arg9 (by decide)).symm.trans (W7_main_arg9 m ρ c)
theorem entry2_arg10 : W6 m ρ c (Proc.devRef .tc main_arg10) = m ((c : Thread nD τ).loc main_arg10) :=
  ((W7_arr m ρ c 7).trans (((dat2 (V6 m ρ) c).arrAt_in 7 rfl _).trans (A_eq2 (V6 m ρ) c 7))).symm.trans (W7_main_arg10 m ρ c)
theorem entry2_arg11 : W6 m ρ c (Proc.devRef .tc main_arg11) = m ((c : Thread nD τ).loc main_arg11) :=
  (W7_of_ne m ρ c main_arg11 (by decide)).symm.trans (W7_main_arg11 m ρ c)

/-- So is it before the host operations that precede that region. -/
theorem exit1_arg2 : W5 m ρ c (Proc.devRef .tc main_arg2) = m ((c : Thread nD τ).loc main_arg2) :=
  (before_keep2 (W5 m ρ c)).symm.trans (entry2_arg2 m ρ c)
theorem exit1_arg3 : W5 m ρ c (Proc.devRef .tc main_arg3) = m ((c : Thread nD τ).loc main_arg3) :=
  (before_keep3 (W5 m ρ c)).symm.trans (entry2_arg3 m ρ c)
theorem exit1_arg6 : W5 m ρ c (Proc.devRef .tc main_arg6) = m ((c : Thread nD τ).loc main_arg6) :=
  (before_keep6 (W5 m ρ c)).symm.trans (entry2_arg6 m ρ c)
theorem exit1_arg7 : W5 m ρ c (Proc.devRef .tc main_arg7) = m ((c : Thread nD τ).loc main_arg7) :=
  (before_keep7 (W5 m ρ c)).symm.trans (entry2_arg7 m ρ c)
theorem exit1_arg8 : W5 m ρ c (Proc.devRef .tc main_arg8) = m ((c : Thread nD τ).loc main_arg8) :=
  (before_keep8 (W5 m ρ c)).symm.trans (entry2_arg8 m ρ c)
theorem exit1_arg9 : W5 m ρ c (Proc.devRef .tc main_arg9) = m ((c : Thread nD τ).loc main_arg9) :=
  (before_keep9 (W5 m ρ c)).symm.trans (entry2_arg9 m ρ c)
theorem exit1_arg10 : W5 m ρ c (Proc.devRef .tc main_arg10) = m ((c : Thread nD τ).loc main_arg10) :=
  (before_keep10 (W5 m ρ c)).symm.trans (entry2_arg10 m ρ c)
theorem exit1_arg11 : W5 m ρ c (Proc.devRef .tc main_arg11) = m ((c : Thread nD τ).loc main_arg11) :=
  (before_keep11 (W5 m ρ c)).symm.trans (entry2_arg11 m ρ c)

/-- The first region writes neither the edge list nor the convolution's bias. -/
theorem exit0_arg1 : W1 m ρ c (Proc.devRef .tc main_arg1) = m ((c : Thread nD τ).loc main_arg1) := W1_of_ne m ρ c main_arg1 (by decide)
theorem exit0_arg5 : W1 m ρ c (Proc.devRef .tc main_arg5) = m ((c : Thread nD τ).loc main_arg5) := W1_of_ne m ρ c main_arg5 (by decide)

/-! ## The three regions' result arrays -/

/-- After the first region: the node features times the weights. -/
theorem product_array :
    W1 m ρ c (Proc.devRef .tc main_v0) = Cert.ReferenceIdeal.Stages.nodeProduct (F := Ideal) (m ((c : Thread nD τ).loc main_arg0)) (m ((c : Thread nD τ).loc main_arg4)) :=
  (W1_arr m ρ c 2).trans (Region0.array_eq (V0 m ρ) c)

/-- At the second region's entry: the normalised neighbourhood sum of that product. -/
theorem sum_array :
    V4 m ρ c main_v43
      = Cert.ReferenceIdeal.Stages.neighbourSum (F := Ideal)
          (Cert.ReferenceIdeal.Stages.nodeProduct (F := Ideal) (m ((c : Thread nD τ).loc main_arg0)) (m ((c : Thread nD τ).loc main_arg4))) (m ((c : Thread nD τ).loc main_arg1)) := by
  refine (between_sum (W1 m ρ c)).trans ?_
  rw [product_array m ρ c, exit0_arg1 m ρ c]

/-- and the bias as one row. -/
theorem bias_row : V4 m ρ c main_v44 = shapeCast S1x128 (m ((c : Thread nD τ).loc main_arg5)) shapeCasts_S128_S1x128 := by
  refine (between_bias (W1 m ρ c)).trans ?_
  rw [exit0_arg5 m ρ c]

/-- After the second region: the node embedding. -/
theorem embedding_array :
    W5 m ρ c (Proc.devRef .tc main_v45)
      = Cert.ReferenceIdeal.Stages.nodeEmbedding (F := Ideal)
          (Cert.ReferenceIdeal.Stages.neighbourSum (F := Ideal)
            (Cert.ReferenceIdeal.Stages.nodeProduct (F := Ideal) (m ((c : Thread nD τ).loc main_arg0)) (m ((c : Thread nD τ).loc main_arg4))) (m ((c : Thread nD τ).loc main_arg1))) (m ((c : Thread nD τ).loc main_arg5)) :=
  (W5_arr m ρ c 2).trans ((Region1.array_eq (V4 m ρ) c _ (bias_row m ρ c)).trans
    (congrArg (fun a => Cert.ReferenceIdeal.Stages.nodeEmbedding (F := Ideal) a _) (sum_array m ρ c)))

/-- At the last region's entry: the embedding's rows at the trucks' targets. -/
theorem rows_array :
    V6 m ρ c main_v52
      = Cert.ReferenceIdeal.Stages.targetRows (F := Ideal)
          (Cert.ReferenceIdeal.Stages.nodeEmbedding (F := Ideal)
            (Cert.ReferenceIdeal.Stages.neighbourSum (F := Ideal)
              (Cert.ReferenceIdeal.Stages.nodeProduct (F := Ideal) (m ((c : Thread nD τ).loc main_arg0)) (m ((c : Thread nD τ).loc main_arg4))) (m ((c : Thread nD τ).loc main_arg1))) (m ((c : Thread nD τ).loc main_arg5))) (m ((c : Thread nD τ).loc main_arg3)) := by
  refine (before_rows (W5 m ρ c)).trans ?_
  rw [embedding_array m ρ c, exit1_arg3 m ρ c]

/-- THE RESULT: the result array after the run is the reference's five stages of the argument arrays. -/
theorem result_eq :
    W7 m ρ c (Proc.devRef .tc main_v58)
      = Cert.ReferenceIdeal.Stages.truckLayers (F := Ideal) (m ((c : Thread nD τ).loc main_arg2)) (m ((c : Thread nD τ).loc main_arg6)) (m ((c : Thread nD τ).loc main_arg7))
          (Cert.ReferenceIdeal.Stages.targetRows (F := Ideal)
            (Cert.ReferenceIdeal.Stages.nodeEmbedding (F := Ideal)
              (Cert.ReferenceIdeal.Stages.neighbourSum (F := Ideal)
                (Cert.ReferenceIdeal.Stages.nodeProduct (F := Ideal) (m ((c : Thread nD τ).loc main_arg0)) (m ((c : Thread nD τ).loc main_arg4))) (m ((c : Thread nD τ).loc main_arg1))) (m ((c : Thread nD τ).loc main_arg5))) (m ((c : Thread nD τ).loc main_arg3)))
          (m ((c : Thread nD τ).loc main_arg8)) (m ((c : Thread nD τ).loc main_arg9)) (m ((c : Thread nD τ).loc main_arg10)) (m ((c : Thread nD τ).loc main_arg11)) := by
  refine ((W7_arr m ρ c 9).trans (Region2.array_eq (V6 m ρ) c)).trans ?_
  refine Eq.trans ?_ (Region2.payload_eq _ _ _ _ _ _ _ _)
  have o0 : V6 m ρ c main_arg2 = m ((c : Thread nD τ).loc main_arg2) := entry2_arg2 m ρ c
  have o1 : V6 m ρ c main_arg6 = m ((c : Thread nD τ).loc main_arg6) := entry2_arg6 m ρ c
  have o2 : V6 m ρ c main_v55 = shapeCast S1x128 (m ((c : Thread nD τ).loc main_arg7)) shapeCasts_S128_S1x128 :=
    (before_bias_truck (W5 m ρ c)).trans (by rw [exit1_arg7 m ρ c])
  have o3 := rows_array m ρ c
  have o4 : V6 m ρ c main_v53 = extractStridedSlice S128x128 ![0, 0] (m ((c : Thread nD τ).loc main_arg8)) slices_S256x128_S128x128_0_0 :=
    (before_top (W5 m ρ c)).trans (by rw [exit1_arg8 m ρ c])
  have o5 : V6 m ρ c main_v54 = extractStridedSlice S128x128 ![128, 0] (m ((c : Thread nD τ).loc main_arg8)) slices_S256x128_S128x128_128_0 :=
    (before_bottom (W5 m ρ c)).trans (by rw [exit1_arg8 m ρ c])
  have o6 : V6 m ρ c main_v56 = shapeCast S1x128 (m ((c : Thread nD τ).loc main_arg9)) shapeCasts_S128_S1x128 :=
    (before_bias_comb (W5 m ρ c)).trans (by rw [exit1_arg9 m ρ c])
  have o7 : V6 m ρ c main_arg10 = m ((c : Thread nD τ).loc main_arg10) := entry2_arg10 m ρ c
  have o8 : V6 m ρ c main_v57 = shapeCast S1x100 (m ((c : Thread nD τ).loc main_arg11)) shapeCasts_S100_S1x100 :=
    (before_bias_out (W5 m ρ c)).trans (by rw [exit1_arg11 m ρ c])
  show k2_pay1 (k2_pay2 (V6 m ρ c main_arg2) (V6 m ρ c main_arg6) (V6 m ρ c main_v55) (V6 m ρ c main_v52) (V6 m ρ c main_v53)
      (V6 m ρ c main_v54) (V6 m ρ c main_v56) (V6 m ρ c main_arg10)) (V6 m ρ c main_v57) = _
  rw [o0, o1, o2, o3, o4, o5, o6, o7, o8]

end Run

end Cert.KernelIdeal.Fold

end
-- ==== Proof.StagesEq.lean ====
/-
  The reference's run ends with its result at the five stages applied in order to the argument arrays:
  the run's composed term is that composition by definition.
-/
import proofs.«113145_j38783554683458_1_alg».proof.Proof.Stages
import proofs.«113145_j38783554683458_1_alg».proof.Proof.RefRun

noncomputable section

namespace Cert.ReferenceIdeal.Stages

open Cert.ReferenceIdeal Cert.ReferenceIdeal.Gen Idealize.ShloMosaic Idealize.ShloMosaic.TcCoe Idealize.SL.Sem

variable {F : FTy → Type} [FloatOps F]

set_option maxRecDepth 8192 in
/-- The reference's composed result term is the five stages applied in order. -/
theorem result_eq (m : (ℓ : Loc nD τ sig) → Buf (Elt F) ℓ) (c : Dev nD) :
    Cert.ReferenceIdeal.Value.res_main_v69 m c
      = truckLayers (m ((c.tc : Thread nD τ).loc main_arg2)) (m ((c.tc : Thread nD τ).loc main_arg6)) (m ((c.tc : Thread nD τ).loc main_arg7))
          (targetRows (nodeEmbedding (neighbourSum (nodeProduct (m ((c.tc : Thread nD τ).loc main_arg0)) (m ((c.tc : Thread nD τ).loc main_arg4)))
              (m ((c.tc : Thread nD τ).loc main_arg1))) (m ((c.tc : Thread nD τ).loc main_arg5))) (m ((c.tc : Thread nD τ).loc main_arg3)))
          (m ((c.tc : Thread nD τ).loc main_arg8)) (m ((c.tc : Thread nD τ).loc main_arg9)) (m ((c.tc : Thread nD τ).loc main_arg10)) (m ((c.tc : Thread nD τ).loc main_arg11)) := rfl

end Cert.ReferenceIdeal.Stages

end
-- ==== Proof.lean ====
/-
  The kernel against its reference, on the extended reals.

  Both programs compute a graph-convolution layer over 100000 nodes followed by a small truck-side network. The kernel
  does three of the steps in tiled kernels — the node features times the convolution's weights, in twenty blocks of 5000
  rows; the bias added and the negative part dropped, in the same blocks; and the whole truck side in one block — and
  leaves the rest to the same host operations the reference uses: the edge list extended by one self loop per node, the
  degrees, the inverse square roots, each message scaled by its two end points' factors and added into its destination's
  row, and the gather of the embedding's rows at the trucks' targets.

  On the extended reals a change of float format is the identity and a matrix product into a zero accumulator is the sum
  over the contracted axis, so each tiled product is the reference's product of the whole arrays, its row blocks tiling the
  array. The one place where the two programs arrange a computation differently is the hidden layer of the truck side:
  the kernel multiplies the truck embedding by the top half of the combining weights and the gathered rows by the bottom
  half and adds, where the reference joins the two arrays along the feature axis and multiplies once. A sum over the 256
  joined features is the sum over the first 128 plus the sum over the last 128, which holds on the extended reals because
  addition there is commutative and associative; no finiteness of the inputs is used anywhere.

  The frames of the two kernel programs are the generated ones. The reference has no kernel: its frame is its run with
  the result dropped. The idealization rewrote nothing, so there is nothing to preserve. For the equivalence, the kernel
  program's run is taken once more with its result array named (the last boundary's contents at the result buffer), that
  array is read back through the three regions and the host operations between them to the reference's five stages of
  the argument arrays, and the reference's run ends at the same five stages by definition.
-/
import proofs.«113145_j38783554683458_1_alg».proof.Defs
import proofs.«113145_j38783554683458_1_alg».proof.Proof.Gen.Kernel.Frame
import proofs.«113145_j38783554683458_1_alg».proof.Proof.Gen.KernelIdeal.Frame
import proofs.«113145_j38783554683458_1_alg».proof.Proof.Gen.ReferenceIdeal
import proofs.«113145_j38783554683458_1_alg».proof.Proof.Gen.Pre_finite_inputs
import proofs.«113145_j38783554683458_1_alg».proof.Proof.KernelRun
import proofs.«113145_j38783554683458_1_alg».proof.Proof.Fold
import proofs.«113145_j38783554683458_1_alg».proof.Proof.RefRun
import proofs.«113145_j38783554683458_1_alg».proof.Proof.StagesEq

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both runs end with the result array at the five stages of those
    arguments: the kernel's by reading its result buffer back through the program, the reference's by definition. -/
theorem algebraic : Cert.algebraic_KernelIdeal_ReferenceIdeal := by
  intro m ρ m' ρ' _ hagree
  refine ⟨fun c => Cert.KernelIdeal.Gen.W7 m ρ c (Proc.devRef .tc Cert.KernelIdeal.main_v58),
    Cert.KernelIdeal.Result.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  refine ((Cert.ReferenceIdeal.Stages.result_eq m' c).trans ?_).trans (Cert.KernelIdeal.Fold.result_eq m ρ c).symm
  rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
